-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x4096x1024 .f32) (main_arg1 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S4x4096x1024 : Shape := ⟨3, ![4, 4096, 1024]⟩
abbrev S1024x1024 : Shape := ⟨2, ![1024, 1024]⟩
abbrev S16384x1024 : Shape := ⟨2, ![16384, 1024]⟩
abbrev S4x1024x1024 : Shape := ⟨3, ![4, 1024, 1024]⟩
abbrev S1x512x1024 : Shape := ⟨3, ![1, 512, 1024]⟩
abbrev S1x1024x1024 : Shape := ⟨3, ![1, 1024, 1024]⟩
abbrev S512x1024 : Shape := ⟨2, ![512, 1024]⟩
abbrev S1024x512 : Shape := ⟨2, ![1024, 512]⟩

abbrev nBuf : Space → Nat
  | .hbm => 8
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S16384x1024, .f32⟩
  | .hbm, ⟨4, _⟩ => ⟨S16384x1024, .bf16⟩
  | .hbm, ⟨5, _⟩ => ⟨S4x4096x1024, .bf16⟩
  | .hbm, ⟨6, _⟩ => ⟨S4x1024x1024, .f32⟩
  | .hbm, ⟨7, _⟩ => ⟨S4x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x512x1024, .f32⟩
  | .local _ .vmem, ⟨6, _⟩ => ⟨S1x512x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .f32⟩
  | .local _ .vmem, ⟨12, _⟩ => ⟨S1x1024x1024, .f32⟩
  | .local _ .vmem, ⟨13, _⟩ => ⟨S1x1024x1024, .f32⟩
  | .local _ .vmem, ⟨14, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev grid2 : Pipeline.Grid := ⟨2, ![4, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  transposes_S1024x1024_S1024x1024_1_0 : S1024x1024.Transposes [1, 0] S1024x1024
  shapeCasts_S4x4096x1024_S16384x1024 : S4x4096x1024.ShapeCasts S16384x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  shapeCasts_S16384x1024_S4x4096x1024 : S16384x1024.ShapeCasts S4x4096x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  transposes_S512x1024_p1_0_S1024x512 : S512x1024.Transposes [1, 0] S1024x512
  dot_S1024x1024_S1024x1024_S1024x1024_1_0_0_1_n_n_wf : DotDims.WF S1024x1024 S1024x1024 S1024x1024 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x1024.size a
  hwx0_2 : ∀ i : grid0.Coords, EltTy.bits .bf16 = 32 ∨ (Rect.block (s := S16384x1024) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x4096x1024.size a
  hwx1_0 : ∀ i : grid1.Coords, EltTy.bits .f32 = 32 ∨ (Rect.block (s := S4x4096x1024) S1x512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S4x1024x1024.size a
  hwx1_1 : ∀ i : grid1.Coords, EltTy.bits .f32 = 32 ∨ (Rect.block (s := S4x1024x1024) S1x1024x1024.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x1024.size a ≤ S4x4096x1024.size a
  hwx2_0 : ∀ i : grid2.Coords, EltTy.bits .bf16 = 32 ∨ (Rect.block (s := S4x4096x1024) S1x1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x1024.size a ≤ S4x1024x1024.size a
  hwx2_1 : ∀ i : grid2.Coords, EltTy.bits .f32 = 32 ∨ (Rect.block (s := S4x1024x1024) S1x1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024x1024.size a ≤ S4x4096x1024.size a
  hwx2_2 : ∀ i : grid2.Coords, EltTy.bits .f32 = 32 ∨ (Rect.block (s := S4x4096x1024) S1x1024x1024.size (cc2_transform_2 i) (hinb2_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x1024x1024.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v3) S1x1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S1x1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1x1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S4x4096x4096 : Shape := ⟨3, ![4, 4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S4x4096x1024, .f32⟩
  | .hbm, ⟨3, _⟩ => ⟨S4x4096x4096, .f32⟩
  | .hbm, ⟨4, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  dot_S4x4096x1024_S1024x1024_S4x4096x1024_2_1_01_0_n_n_wf : DotDims.WF S4x4096x1024 S1024x1024 S4x4096x1024 [2] [1] [0, 1] [0] [] []
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.Spec.lean ====
/-
  The mathematics of this certificate, with no program in sight.

  Over `x : [4, 4096, 1024]` and `w : [1024, 1024]` (extended reals), per batch `b`:
    queries   q[b,s,o]  = ∑ₖ x[b,s,k] · w[o,k]                 (x · wᵀ)
    gram      g[b,o,h]  = ∑ₜ x[b,t,o] · x[b,t,h]               (xᵀ · x)
    kernel    ∑ₒ q[b,s,o] · g[b,o,h]                            (q · (xᵀ · x))
    reference ∑ₜ (∑ₒ q[b,s,o] · x[b,t,o]) · x[b,t,h]            ((q · xᵀ) · x)
  The two are the two bracketings of a triple matrix product. On the extended reals multiplication does not
  distribute over addition at the infinities, so the bracketings agree only where every entry is a real number:
  there both are the real double sum ∑ₒ ∑ₜ q · x[t,o] · x[t,h].
-/
import Idealize.ShloMosaic.PureOps.Ideal
import Idealize.ShloMosaic.Lib.ValueIdx

noncomputable section

namespace Cert.Spec

open Idealize.ShloMosaic Idealize.ShloMosaic.ValueIdx

abbrev SX : Shape := ⟨3, ![4, 4096, 1024]⟩
abbrev SW : Shape := ⟨2, ![1024, 1024]⟩

/-- The queries: row `s` of batch `b` of `x` against row `o` of `w`. -/
def q (X : SX.Idx → EReal) (W : SW.Idx → EReal) (b : Fin 4) (s : Fin 4096) (o : Fin 1024) : EReal :=
  ∑ k : Fin 1024, X (ix3 b s k) * W (ix2 o k)

/-- The Gram matrix of batch `b`: columns `o` and `h` of `x` multiplied along the sequence axis. -/
def gram (X : SX.Idx → EReal) (b : Fin 4) (o h : Fin 1024) : EReal :=
  ∑ t : Fin 4096, X (ix3 b t o) * X (ix3 b t h)

/-- The kernel's bracketing: queries against the Gram matrix. -/
def attnK (X : SX.Idx → EReal) (W : SW.Idx → EReal) : SX.Idx → EReal :=
  fun i => ∑ o : Fin 1024, q X W (i 0) (i 1) o * gram X (i 0) o (i 2)

/-- The reference's bracketing: the scores `q · xᵀ` first, then against `x`. -/
def attnR (X : SX.Idx → EReal) (W : SW.Idx → EReal) : SX.Idx → EReal :=
  fun i => ∑ t : Fin 4096, (∑ o : Fin 1024, q X W (i 0) (i 1) o * X (ix3 (i 0) t o)) * X (ix3 (i 0) t (i 2))

/-! ## The three stages of the kernel's bracketing, as whole arrays

The kernel computes its bracketing in three passes over memory: the queries of all `4 · 4096` rows at once against the
TRANSPOSED weight; the Gram matrix per batch; the product of the two per batch. -/

abbrev SR : Shape := ⟨2, ![16384, 1024]⟩
abbrev SG : Shape := ⟨3, ![4, 1024, 1024]⟩

/-- Rows against columns: `[16384, 1024] · [1024, 1024]`. -/
def rowsTimes (A : SR.Idx → EReal) (B : SW.Idx → EReal) : SR.Idx → EReal :=
  fun i => ∑ k : Fin 1024, A (ix2 (i 0) k) * B (ix2 k (i 1))

/-- The Gram matrices of all batches as one array `[4, 1024, 1024]`. -/
def gramArr (X : SX.Idx → EReal) : SG.Idx → EReal :=
  fun i => gram X (i 0) (i 1) (i 2)

/-- Per batch, rows against columns: `[4, 4096, 1024] · [4, 1024, 1024]`. -/
def batchTimes (A : SX.Idx → EReal) (G : SG.Idx → EReal) : SX.Idx → EReal :=
  fun i => ∑ o : Fin 1024, A (ix3 (i 0) (i 1) o) * G (ix3 (i 0) o (i 2))

/-- The coercion of the reals into the extended reals commutes with a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW. Where every entry of `x` and `w` is a real number, the two bracketings agree: the queries are then
    real, both sides are coercions of real sums, and in `ℝ` each is the double sum
    `∑ₒ ∑ₜ q[o] · x[t,o] · x[t,h]` (distributivity, then the two summations exchanged). -/
theorem attnR_eq_attnK (X : SX.Idx → EReal) (W : SW.Idx → EReal)
    (hX : ∀ i, ∃ r : ℝ, X i = (r : EReal)) (hW : ∀ i, ∃ r : ℝ, W i = (r : EReal)) :
    attnR X W = attnK X W := by
  choose xr hxr using hX
  choose wr hwr using hW
  funext i
  obtain ⟨qr, hq⟩ : ∃ qr : Fin 1024 → ℝ, ∀ o, q X W (i 0) (i 1) o = (qr o : EReal) :=
    ⟨fun o => ∑ k : Fin 1024, xr (ix3 (i 0) (i 1) k) * wr (ix2 o k), fun o => by
      unfold q; simp only [hxr, hwr, ← EReal.coe_mul, ← coe_sum]⟩
  unfold attnR attnK gram
  simp only [hq, hxr, ← EReal.coe_mul, ← coe_sum]
  rw [EReal.coe_eq_coe_iff]
  simp only [Finset.sum_mul, Finset.mul_sum]
  rw [Finset.sum_comm]
  exact Finset.sum_congr rfl fun o _ => Finset.sum_congr rfl fun t _ => by ring

end Cert.Spec

end
-- ==== Proof.Stages.lean ====
/-
  The kernel's three stages, composed, are the kernel's bracketing.

  The first stage works on `x` flattened to `[16384, 1024]` rows (row `4096·b + s` is row `s` of batch `b`) against the
  TRANSPOSED weight, so its entry `(4096·b + s, o)` is `∑ₖ x[b,s,k] · w[o,k]`: the query `q[b,s,o]`. Cast back to
  `[4, 4096, 1024]` and multiplied per batch with the Gram array it gives `∑ₒ q[b,s,o] · g[b,o,h]`.
-/
import proofs.«142855_j34600256536774_1_alg».proof.Proof.Spec
import Idealize.ShloMosaic.Lib.Pipeline.Value
import Idealize.ShloMosaic.Lib.ValueIdx
import Idealize.ShloMosaic.Lib.ValueLayout

noncomputable section

namespace Cert.Spec

open Idealize.ShloMosaic Idealize.ShloMosaic.ValueIdx

/-- The flattened rows array read at row `4096·b + s`: row `s` of batch `b`. -/
theorem flat_apply (X : SX.Idx → EReal) (h : SX.ShapeCasts SR) (b : Fin 4) (s : Fin 4096) (k : Fin 1024)
    (r : Fin 16384) (hr : r.val = b.val * 4096 + s.val) :
    shapeCast SR X h (ix2 r k) = X (ix3 b s k) :=
  shapeCast_apply X h _ _ (by
    rw [Shape.rowMajor_val_three, Shape.rowMajor_val_two]
    show (b.val * 4096 + s.val) * 1024 + k.val = r.val * 1024 + k.val
    rw [hr])

/-- The rows array cast back to batches, read at `(b, s, o)`: row `4096·b + s`. -/
theorem unflat_apply (Q : SR.Idx → EReal) (h : SR.ShapeCasts SX) (b : Fin 4) (s : Fin 4096) (o : Fin 1024)
    (r : Fin 16384) (hr : r.val = b.val * 4096 + s.val) :
    shapeCast SX Q h (ix3 b s o) = Q (ix2 r o) :=
  shapeCast_apply Q h _ _ (by
    rw [Shape.rowMajor_val_three, Shape.rowMajor_val_two]
    show r.val * 1024 + o.val = (b.val * 4096 + s.val) * 1024 + o.val
    rw [hr])

/-- The three stages composed: queries of the flattened rows against the transposed weight, cast back to batches,
    then against the Gram array — index by index the kernel's bracketing. -/
theorem stages_eq (X : SX.Idx → EReal) (W : SW.Idx → EReal) (h1 : SX.ShapeCasts SR) (h2 : SR.ShapeCasts SX)
    (h3 : SW.Transposes [1, 0] SW) :
    batchTimes (shapeCast SX (rowsTimes (shapeCast SR X h1) (transpose SW [1, 0] W h3)) h2) (gramArr X) = attnK X W := by
  funext i
  obtain ⟨b, s, h, rfl⟩ : ∃ (b : Fin 4) (s : Fin 4096) (h : Fin 1024), i = ix3 b s h := ⟨i 0, i 1, i 2, eq_ix3 i⟩
  have hlt : b.val * 4096 + s.val < 16384 := by have := b.isLt; have := s.isLt; omega
  show ∑ o : Fin 1024, shapeCast SX (rowsTimes (shapeCast SR X h1) (transpose SW [1, 0] W h3)) h2 (ix3 b s o) * gramArr X (ix3 b o h)
      = ∑ o : Fin 1024, q X W b s o * gram X b o h
  refine Finset.sum_congr rfl fun o _ => ?_
  rw [unflat_apply _ h2 b s o ⟨_, hlt⟩ rfl]
  show (∑ k : Fin 1024, shapeCast SR X h1 (ix2 ⟨_, hlt⟩ k) * transpose SW [1, 0] W h3 (ix2 k o)) * gram X b o h = _
  congr 1
  refine Finset.sum_congr rfl fun k _ => ?_
  rw [flat_apply X h1 b s k ⟨_, hlt⟩ rfl, transpose_ix2_apply W h3 k o]

end Cert.Spec

end
-- ==== Proof.Region0.lean ====
import proofs.«142855_j34600256536774_1_alg».proof.Proof.Gen.KernelIdeal.Frame
import proofs.«142855_j34600256536774_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Whole.Pass0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! # The first pass: rows against columns

The first pass walks the 16 row blocks of `main_v1` (1024 rows each). At row block `t` it multiplies the block by the
whole of `main_v0` and writes the product back as row block `t` of the result. Entry `(r, h)` of a block product is
`∑ₖ` (row `r` of the block at `k`) · (`main_v0` at `(k, h)`), and row `r` of block `t` is row `1024·t + r` of the array, so
the 16 blocks together are the one array `rowsTimes (main_v1) (main_v0)`; the roundings between the steps are the
identity on the extended reals. -/

/-! ## The block product at an index -/

/-- The zero offsets of a whole-block access, however spelt. -/
theorem zero_off : (![0, 0] : Fin 2 → Nat) = fun _ => 0 :=
  funext fun a => by match a with | ⟨0, _⟩ => rfl | ⟨1, _⟩ => rfl

/-- Left operand, axis 0: the output's row. -/
theorem lhs_q_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- Left operand, axis 1: the contracted index. -/
theorem lhs_q_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- Right operand, axis 0: the contracted index. -/
theorem rhs_q_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- Right operand, axis 1: the output's column. -/
theorem rhs_q_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The body's product of two blocks, entry by entry: row `p` of the first against column `q` of the second
    (the casts keep the shape and the roundings are the identity on the extended reals). -/
theorem block_product_apply (x0 x1 : Vec Ideal S1024x1024 .f32) (p q : Fin 1024) :
    k0_pay1 (F := Ideal) x0 x1 (ix2 p q) = ∑ k : Fin 1024, x0 (ix2 p k) * x1 (ix2 k q) := by
  unfold k0_pay1
  simp only [shapeCast_self]
  rw [truncf_apply]
  refine (Ideal.matmul_constant_zero_apply dot_S1024x1024_S1024x1024_S1024x1024_1_0_0_1_n_n none _ _ (ix2 p q)).trans ?_
  rw [← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs_q_0 _ _
    | ⟨1, _⟩ => exact (lhs_q_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs_q_0 _ _).trans hk
    | ⟨1, _⟩ => exact rhs_q_1 _ _)
  rw [truncf_apply, truncf_apply, el, er]

/-- The same against whole arrays: when the two blocks read `A` along the row of `i` and `B` along the column of
    `i`, the block product at `j` is `A`'s row against `B`'s column at `i`. -/
theorem block_product_eq (x0 x1 : Vec Ideal S1024x1024 .f32) (A : Cert.Spec.SR.Idx → EReal) (B : Cert.Spec.SW.Idx → EReal)
    (j : S1024x1024.Idx) (i : Cert.Spec.SR.Idx)
    (h0 : ∀ k : Fin 1024, x0 (ix2 (j 0) k) = A (ix2 (i 0) k))
    (h1 : ∀ k : Fin 1024, x1 (ix2 k (j 1)) = B (ix2 k (i 1))) :
    k0_pay1 (F := Ideal) x0 x1 j = Cert.Spec.rowsTimes A B i := by
  obtain ⟨p, q, rfl⟩ : ∃ (p q : Fin 1024), j = ix2 p q := ⟨j 0, j 1, eq_ix2 j⟩
  rw [block_product_apply]
  unfold Cert.Spec.rowsTimes
  exact Finset.sum_congr rfl fun k _ => congrArg₂ (· * ·) (h0 k) (h1 k)

/-! ## The index maps, decided over the grid -/

/-- At point `t` the rows window and the output window sit at row block `t`, column block 0; the columns
    window is its whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block is some point's. -/
theorem idx_onto : ∀ q0 : Fin 16, ∃ t : Fin cfg0.N, win0_2.index t = ![q0.val, 0] :=
  (by decide +kernel : ∀ q0 : Fin 16, ∃ t : Fin grid0.N, win0_2.index t = ![q0.val, 0])

/-! ## What a point writes back -/

/-- Point `t` writes back block `t` of the rows of `main_v1` against the columns of `main_v0`. -/
theorem flushed_eq (c : Dev nD) (t : Fin cfg0.N) :
    (dat0 V c).flushed 2 t
      = ((cfg0.win 2).blk t).view.read (Elt Ideal) (Cert.Spec.rowsTimes (V c main_v1) (V c main_v0)) := by
  show (cfg0.win 2).cut (grid0.coords t) ((dat0 V c).after 2 t) = _
  rw [after0_2]
  unfold out0_2
  rw [View.canon_unit_zero zero_off]
  simp only [View.ld_unit_zero (S := S1024x1024) zero_off]
  obtain ⟨e0, e1, e2, e3, e4, e5⟩ := idx_facts t
  funext j
  show k0_pay1 (F := Ideal) (iblk0 V c 0 t) (iblk0 V c 1 t) j
    = Cert.Spec.rowsTimes (V c main_v1) (V c main_v0) (((cfg0.win 2).blk t).view.emb j)
  refine block_product_eq (iblk0 V c 0 t) (iblk0 V c 1 t) (V c main_v1) (V c main_v0) j _ (fun k => ?_) (fun k => ?_)
  · show V c main_v1 (((cfg0.win 0).blk t).view.emb (ix2 (j 0) k)) = V c main_v1 (ix2 ((((cfg0.win 2).blk t).view.emb j) 0) k)
    congr 1
    funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 1024 + 1 * k.val = k.val; omega
  · show V c main_v0 (((cfg0.win 1).blk t).view.emb (ix2 k (j 1))) = V c main_v0 (ix2 k ((((cfg0.win 2).blk t).view.emb j) 1))
    congr 1
    funext a; apply Fin.ext
    match a with
    | ⟨0, _⟩ => show win0_1.index t (0 : Fin 2) * 1024 + 1 * k.val = k.val; omega
    | ⟨1, _⟩ => show win0_1.index t (1 : Fin 2) * 1024 + 1 * (j 1).val = win0_2.index t (1 : Fin 2) * 1024 + 1 * (j 1).val; omega

/-! ## From the blocks to the array -/

/-- An index of the array is in point `t`'s block iff each coordinate is in the block's range on its axis. -/
theorem mem_blk (t : Fin cfg0.N) (i : S16384x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v2).slice (win0_2.rect t)).set ↔ _
  rw [View.set_slice_whole, Rect.mem_set_unit]
  exact Iff.rfl

/-- Every index of the array is in some point's block: row `r` is in row block `r / 1024`. -/
theorem covered (i : S16384x1024.Idx) :
    ∃ t : Fin cfg0.N, (cfg0.win 2).flush t = true ∧ i ∈ ((cfg0.win 2).blk t).view.set := by
  have hi0 : (i 0).val < 16384 := (i 0).isLt
  have hi1 : (i 1).val < 1024 := (i 1).isLt
  obtain ⟨t, ht⟩ := idx_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- After the first pass the rows array holds the rows of `main_v1` against the columns of `main_v0`. -/
theorem region0 (c : Dev nD) :
    (dat0 V c).arrAt 2 cfg0.N = Cert.Spec.rowsTimes (V c main_v1) (V c main_v0) :=
  (dat0 V c).arrAt_eq_of_cover 2 (Cert.Spec.rowsTimes (V c main_v1) (V c main_v0))
    (fun t _ => flushed_eq V c t) covered

end Cert.KernelIdeal.Whole.Pass0

end
-- ==== Proof.Region1.lean ====
import proofs.«142855_j34600256536774_1_alg».proof.Proof.Gen.KernelIdeal.Frame
import proofs.«142855_j34600256536774_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Whole.Pass1

open Idealize.ShloMosaic Idealize.ShloMosaic.TcCoe Idealize.ShloMosaic.ValueIdx Idealize.SL.Sem
open Idealize.ShloMosaic.Pipeline (Dat)
open Cert.KernelIdeal Cert.KernelIdeal.Gen
open Idealize.ShloMosaic.Tactic

theorem hz3 : (![0, 0, 0] : Fin 3 → Nat) = fun _ => 0 := funext fun a => by fin_cases a <;> rfl

/-! ## What each control case leaves in the Gram block's staging buffer -/

section Pieces
variable {F : FTy → Type} [FloatOps F]

/-- Away from the first sequence block of a batch the body leaves the buffer's contents plus the transposed input
    block times the input block. -/
theorem out_B (c : Dev nD) (i : grid1.Coords) (a2 : Memref sig .tc .vmem S1x512x1024 .f32) (h2 : a2.IsWhole)
    (a3 : Memref sig .tc .vmem S1x1024x1024 .f32) (h3 : a3.IsWhole) (hc : ¬cond1_0 i)
    (x : Vec F S1x512x1024 .f32) (xo : Vec F S1x1024x1024 .f32) :
    out1_B_1 c i a2 h2 a3 h3 hc x xo = k1_pay2 x xo := by
  unfold out1_B_1
  rw [View.read_writes_eq_canon _ _ _ (cover1_B_1 c i a2 h2 a3 h3 hc x xo)]
  unfold kernelRun1_B
  dsimp only
  sl_unfold_words
  rw [View.canon_unit_zero hz3]
  simp only [View.readAt_eq_ld, h2.read_unread, h3.read_unread, View.ld_unit_zero (S := S1x512x1024) hz3,
    View.ld_unit_zero (S := S1x1024x1024) hz3]

/-- At the first sequence block of a batch the body stores the zero block first, reads it back, and leaves
    zero plus the transposed input block times the input block. -/
theorem out_A (c : Dev nD) (i : grid1.Coords) (a2 : Memref sig .tc .vmem S1x512x1024 .f32) (h2 : a2.IsWhole)
    (a3 : Memref sig .tc .vmem S1x1024x1024 .f32) (h3 : a3.IsWhole) (hc : cond1_0 i)
    (x : Vec F S1x512x1024 .f32) :
    out1_A_1 c i a2 h2 a3 h3 hc x = k1_pay2 x (k1_pay1 (F := F)) := by
  unfold out1_A_1
  rw [View.read_writes_eq_canon _ _ _ (cover1_A_1 c i a2 h2 a3 h3 hc x)]
  unfold kernelRun1_A
  dsimp only
  sl_unfold_words
  rw [View.canon_cons_unit_zero (S := S1x1024x1024) hz3]
  simp only [View.readAt_eq_ld, h2.read_unread, View.ld_unit_zero (S := S1x512x1024) hz3,
    View.readCov_unit_zero (S := S1x1024x1024) _ hz3]

end Pieces

/-! ## The payloads at an index, over the extended reals -/

/-- A [1, 512, 1024] block viewed [512, 1024] reads (t, o) at (0, t, o). -/
theorem cast_x (x : Vec Ideal S1x512x1024 .f32) (hh : S1x512x1024.ShapeCasts S512x1024) (t : Fin 512) (o : Fin 1024) :
    shapeCast S512x1024 x hh (ix2 t o) = x (ix3 (0 : Fin 1) t o) :=
  shapeCast_apply x hh (ix2 t o) (ix3 (0 : Fin 1) t o) (by
    rw [Shape.rowMajor_val_two, Shape.rowMajor_val_three]
    show ((0 : ℕ) * 512 + t.val) * 1024 + o.val = t.val * 1024 + o.val
    omega)

/-- A [1, 1024, 1024] block viewed [1024, 1024] reads (o, h) at (0, o, h). -/
theorem cast_acc (acc : Vec Ideal S1x1024x1024 .f32) (hh : S1x1024x1024.ShapeCasts S1024x1024) (o h : Fin 1024) :
    shapeCast S1024x1024 acc hh (ix2 o h) = acc (ix3 (0 : Fin 1) o h) :=
  shapeCast_apply acc hh (ix2 o h) (ix3 (0 : Fin 1) o h) (by
    rw [Shape.rowMajor_val_two, Shape.rowMajor_val_three]
    show ((0 : ℕ) * 1024 + o.val) * 1024 + h.val = o.val * 1024 + h.val
    omega)

/-- A [1024, 1024] value stored as a [1, 1024, 1024] block reads (0, o, h) at (o, h). -/
theorem cast_out (v : FVec Ideal S1024x1024 .f32) (hh : S1024x1024.ShapeCasts S1x1024x1024) (o h : Fin 1024) :
    shapeCast S1x1024x1024 v hh (ix3 (0 : Fin 1) o h) = v (ix2 o h) :=
  shapeCast_apply v hh (ix3 (0 : Fin 1) o h) (ix2 o h) (by
    rw [Shape.rowMajor_val_two, Shape.rowMajor_val_three]
    show o.val * 1024 + h.val = ((0 : ℕ) * 1024 + o.val) * 1024 + h.val
    omega)

/-- The product's dimension numbers: rows of the left operand against columns of the right, one contracted axis. -/
abbrev D1 : DotDims S1024x512 S512x1024 S1024x1024 := dot_S1024x512_S512x1024_S1024x1024_1_0_0_1_n_n

theorem lhsD_0 (j : S1024x1024.Idx) (q : D1.contr.Idx) : (D1.lhsIdx j q 0).val = (j 0).val := by
  unfold DotDims.lhsIdx
  rw [dif_neg (show ¬(0 : Fin S1024x512.rank) ∈ D1.lhsBatch by decide),
    dif_pos (show (0 : Fin S1024x512.rank) ∈ D1.lhsNonContracting by decide)]
  rfl
theorem lhsD_1 (j : S1024x1024.Idx) (q : D1.contr.Idx) : (D1.lhsIdx j q 1).val = (q ⟨0, by decide⟩).val :=
  D1.lhsIdx_val_of_single rfl j q
theorem rhsD_0 (j : S1024x1024.Idx) (q : D1.contr.Idx) : (D1.rhsIdx j q 0).val = (q ⟨0, by decide⟩).val :=
  D1.rhsIdx_val_of_single rfl j q
theorem rhsD_1 (j : S1024x1024.Idx) (q : D1.contr.Idx) : (D1.rhsIdx j q 1).val = (j 1).val := by
  unfold DotDims.rhsIdx
  rw [dif_neg (show ¬(1 : Fin S512x1024.rank) ∈ D1.rhsBatch by decide),
    dif_pos (show (1 : Fin S512x1024.rank) ∈ D1.rhsNonContracting by decide)]
  rfl

/-- The update at (0, o, h): what the buffer held there plus the block's column o against its column h. -/
theorem pay2_apply (x : Vec Ideal S1x512x1024 .f32) (acc : Vec Ideal S1x1024x1024 .f32) (o h : Fin 1024) :
    k1_pay2 (F := Ideal) x acc (ix3 (0 : Fin 1) o h)
      = acc (ix3 (0 : Fin 1) o h) + ∑ t : Fin 512, x (ix3 (0 : Fin 1) t o) * x (ix3 (0 : Fin 1) t h) := by
  unfold k1_pay2
  dsimp only
  refine (cast_out _ shapeCasts_S1024x1024_S1x1024x1024 o h).trans ?_
  refine (addf_apply _ _ (ix2 o h)).trans ?_
  refine congrArg₂ (· + ·) (cast_acc acc shapeCasts_S1x1024x1024_S1024x1024 o h) ?_
  refine (Ideal.matmul_constant_zero_apply D1 none _ _ (ix2 o h)).trans ?_
  rw [← Equiv.sum_comp (ValueIdx.contrEquiv1 D1 512 rfl rfl).symm]
  refine Finset.sum_congr rfl fun k _ => ?_
  have hk := ValueIdx.contrEquiv1_symm_val D1 512 rfl rfl k
  have el : D1.lhsIdx (ix2 o h) ((ValueIdx.contrEquiv1 D1 512 rfl rfl).symm k) = ix2 o k := funext fun a => Fin.ext (by
    match a with
    | ⟨0, _⟩ => exact lhsD_0 _ _
    | ⟨1, _⟩ => exact (lhsD_1 _ _).trans hk)
  have er : D1.rhsIdx (ix2 o h) ((ValueIdx.contrEquiv1 D1 512 rfl rfl).symm k) = ix2 k h := funext fun a => Fin.ext (by
    match a with
    | ⟨0, _⟩ => exact (rhsD_0 _ _).trans hk
    | ⟨1, _⟩ => exact rhsD_1 _ _)
  rw [el, er]
  refine congrArg₂ (· * ·) ?_ (cast_x x shapeCasts_S1x512x1024_S512x1024 k h)
  refine (transpose_apply [1, 0] _ transposes_S512x1024_p1_0_S1024x512 (ix2 o k) (ix2 k o) ?_).trans
    (cast_x x shapeCasts_S1x512x1024_S512x1024 k o)
  intro b
  match b with
  | ⟨0, _⟩ => rfl
  | ⟨1, _⟩ => rfl

/-- The reset block is zero everywhere. -/
theorem pay1_apply (j : S1x1024x1024.Idx) : k1_pay1 (F := Ideal) j = 0 := by
  unfold k1_pay1
  show Ideal.ofBits .f32 0x00000000#32 = 0
  exact Ideal.ofBits_zero_f32

variable (V : (c : Dev nD) → (b : Ref sig .tc) → Buf (Elt Ideal) ((c : Thread nD τ).loc b))

/-! ## The input block and the Gram block in their arrays -/

/-- The input array as the second pass finds it. -/
abbrev xarr (c : Dev nD) : Vec Ideal S4x4096x1024 .f32 := V c main_arg0
/-- The input block the window holds at a grid point. -/
abbrev xblk (c : Dev nD) (t : Fin cfg1.N) : Vec Ideal S1x512x1024 .f32 := iblk1 V c 0 t

/-- Point n = 8 b + j reads block (b, j, 0) of the input and writes block (b, 0, 0) of the Gram array. -/
theorem idx1_0 : ∀ t : Fin cfg1.N, win1_0.index t 0 = t.val / 8 ∧ win1_0.index t 1 = t.val % 8 ∧ win1_0.index t 2 = 0 :=
  (by decide +kernel : ∀ t : Fin grid1.N, win1_0.index t 0 = t.val / 8 ∧ win1_0.index t 1 = t.val % 8 ∧ win1_0.index t 2 = 0)
theorem idx1_1 : ∀ t : Fin cfg1.N, win1_1.index t 0 = t.val / 8 ∧ win1_1.index t 1 = 0 ∧ win1_1.index t 2 = 0 :=
  (by decide +kernel : ∀ t : Fin grid1.N, win1_1.index t 0 = t.val / 8 ∧ win1_1.index t 1 = 0 ∧ win1_1.index t 2 = 0)

/-- Row r of batch b of the input at column o, as a function of natural numbers (zero outside the array, where
    nothing reads it). -/
def xrow (X : Cert.Spec.SX.Idx → EReal) (b r : ℕ) (o : Fin 1024) : EReal :=
  if h : b < 4 ∧ r < 4096 then X (ix3 (⟨b, h.1⟩ : Fin 4) (⟨r, h.2⟩ : Fin 4096) o) else 0

/-- Inside the array it is the entry. -/
theorem xrow_eq (X : Cert.Spec.SX.Idx → EReal) (b : Fin 4) (r : Fin 4096) (o : Fin 1024) :
    xrow X b.val r.val o = X (ix3 b r o) := by
  unfold xrow
  rw [dif_pos ⟨b.isLt, r.isLt⟩]

/-- The window's block at point t, row s, is row 512 (t mod 8) + s of batch t / 8. -/
theorem xblk_apply (c : Dev nD) (t : Fin cfg1.N) (s : Fin 512) (o : Fin 1024) :
    xblk V c t (ix3 (0 : Fin 1) s o) = xrow (xarr V c) (t.val / 8) (512 * (t.val % 8) + s.val) o := by
  have hN : t.val < 32 := lt_of_lt_of_eq t.isLt (show cfg1.N = 32 from N_1)
  have hb : t.val / 8 < 4 := by omega
  have hr : 512 * (t.val % 8) + s.val < 4096 := by have := s.isLt; omega
  unfold xrow
  rw [dif_pos ⟨hb, hr⟩]
  show iblk1 V c 0 t (ix3 (0 : Fin 1) s o) = V c main_arg0 _
  unfold iblk1
  rw [View.read_apply]
  show V c main_arg0 _ = V c main_arg0 _
  congr 1
  funext a
  apply Fin.ext
  match a with
  | ⟨0, _⟩ => show win1_0.index t 0 * 1 + 1 * 0 = t.val / 8; rw [(idx1_0 t).1]; omega
  | ⟨1, _⟩ => show win1_0.index t 1 * 512 + 1 * s.val = 512 * (t.val % 8) + s.val; rw [(idx1_0 t).2.1]; omega
  | ⟨2, _⟩ => show win1_0.index t 2 * 1024 + 1 * o.val = o.val; rw [(idx1_0 t).2.2]; omega

/-! ## The accumulation over the sequence blocks of a batch -/

/-- One sequence block's contribution to entry (o, h) of batch b's Gram matrix. -/
def blockTerm (X : Cert.Spec.SX.Idx → EReal) (b j : ℕ) (o h : Fin 1024) : EReal :=
  ∑ s : Fin 512, xrow X b (512 * j + s.val) o * xrow X b (512 * j + s.val) h

/-- At the first sequence block of a batch the buffer is left at that block's contribution. -/
theorem stepA (c : Dev nD) (t : Fin cfg1.N) (h0 : t.val % 8 = 0) (o h : Fin 1024) :
    outsAt1 V c t.val t.isLt (ix3 (0 : Fin 1) o h) = blockTerm (xarr V c) (t.val / 8) 0 o h := by
  rw [outsAt1_A V c t h0]
  refine (congrFun (out_A (F := Ideal) c (grid1.coords t) (ms1_0 t) (hs1_0 t) (ms1_1 t) (hs1_1 t)
    ((hcond1_0 t).mpr h0) (xblk V c t)) (ix3 (0 : Fin 1) o h)).trans ?_
  refine (pay2_apply (xblk V c t) (k1_pay1 (F := Ideal)) o h).trans ?_
  rw [pay1_apply, zero_add]
  unfold blockTerm
  refine Finset.sum_congr rfl fun s _ => ?_
  rw [xblk_apply V c t s o, xblk_apply V c t s h, h0]

/-- At every later sequence block the body adds that block's contribution to what the point before left. -/
theorem stepB (c : Dev nD) (t : Fin cfg1.N) (h0 : ¬t.val % 8 = 0) (o h : Fin 1024) :
    outsAt1 V c t.val t.isLt (ix3 (0 : Fin 1) o h)
      = outsAt1 V c (t.val - 1) (Nat.lt_of_le_of_lt (Nat.sub_le _ _) t.isLt) (ix3 (0 : Fin 1) o h)
        + blockTerm (xarr V c) (t.val / 8) (t.val % 8) o h := by
  rw [outsAt1_B V c t h0]
  refine (congrFun (out_B (F := Ideal) c (grid1.coords t) (ms1_0 t) (hs1_0 t) (ms1_1 t) (hs1_1 t)
    (fun hh => h0 ((hcond1_0 t).mp hh)) (xblk V c t)
    (outsAt1 V c (t.val - 1) (Nat.lt_of_le_of_lt (Nat.sub_le _ _) t.isLt))) (ix3 (0 : Fin 1) o h)).trans ?_
  refine (pay2_apply (xblk V c t) _ o h).trans ?_
  refine congrArg₂ (· + ·) rfl ?_
  unfold blockTerm
  refine Finset.sum_congr rfl fun s _ => ?_
  rw [xblk_apply V c t s o, xblk_apply V c t s h]

/-- After point n the buffer holds the contributions of the sequence blocks 0 … n mod 8 of batch n / 8: by induction
    on the point. -/
theorem outsAt_eq (c : Dev nD) : ∀ (n : ℕ) (hn : n < cfg1.N) (o h : Fin 1024),
    outsAt1 V c n hn (ix3 (0 : Fin 1) o h)
      = ∑ j ∈ Finset.range (n % 8 + 1), blockTerm (xarr V c) (n / 8) j o h
  | 0, hn, o, h => by
    rw [show (0 % 8 + 1) = 1 from rfl, Finset.sum_range_one]
    exact stepA V c ⟨0, hn⟩ rfl o h
  | n + 1, hn, o, h => by
    by_cases h0 : (n + 1) % 8 = 0
    · rw [h0, Finset.sum_range_one]
      exact stepA V c ⟨n + 1, hn⟩ h0 o h
    · refine (stepB V c ⟨n + 1, hn⟩ h0 o h).trans ?_
      rw [Finset.sum_range_succ]
      refine congrArg₂ (· + ·) ?_ rfl
      show outsAt1 V c n (Nat.lt_of_succ_lt hn) (ix3 (0 : Fin 1) o h) = _
      have e1 : (n + 1) % 8 = n % 8 + 1 := by omega
      have e2 : (n + 1) / 8 = n / 8 := by omega
      rw [e1, e2]
      exact outsAt_eq c n (Nat.lt_of_succ_lt hn) o h

/-- Eight blocks of 512 rows are the 4096 rows. -/
theorem sum_blocks (f : ℕ → EReal) :
    ∑ j ∈ Finset.range 8, ∑ s : Fin 512, f (512 * j + s.val) = ∑ r : Fin 4096, f r.val := by
  have e := Equiv.sum_comp (finProdFinEquiv : Fin 8 × Fin 512 ≃ Fin (8 * 512)) (fun r => f r.val)
  rw [Fintype.sum_prod_type] at e
  rw [Finset.sum_range]
  refine Eq.trans (Finset.sum_congr rfl fun j _ => Finset.sum_congr rfl fun s _ => ?_) e
  show f (512 * j.val + s.val) = f (s.val + 512 * j.val)
  rw [Nat.add_comm]

/-- After the last sequence block of a batch the buffer holds the batch's Gram matrix. -/
theorem outsAt_last (c : Dev nD) (t : Fin cfg1.N) (h7 : t.val % 8 = 7) (hb : t.val / 8 < 4) (o h : Fin 1024) :
    outsAt1 V c t.val t.isLt (ix3 (0 : Fin 1) o h) = Cert.Spec.gram (xarr V c) ⟨t.val / 8, hb⟩ o h := by
  rw [outsAt_eq V c t.val t.isLt o h, h7]
  unfold blockTerm Cert.Spec.gram
  refine (sum_blocks (fun r => xrow (xarr V c) (t.val / 8) r o * xrow (xarr V c) (t.val / 8) r h)).trans ?_
  exact Finset.sum_congr rfl fun r _ =>
    congrArg₂ (· * ·) (xrow_eq (xarr V c) ⟨t.val / 8, hb⟩ r o) (xrow_eq (xarr V c) ⟨t.val / 8, hb⟩ r h)

/-! ## The Gram array after the pass -/

/-- What a point that writes the block back writes is its block of the array of Gram matrices. -/
theorem flushed_eq (c : Dev nD) (t : Fin cfg1.N) (hf : (cfg1.win 1).flush t = true) :
    (dat1 V c).flushed 1 t = ((cfg1.win 1).blk t).view.read (Elt Ideal) (Cert.Spec.gramArr (xarr V c)) := by
  have hN : t.val < 32 := lt_of_lt_of_eq t.isLt (show cfg1.N = 32 from N_1)
  have h7 : t.val % 8 = 7 := (flush1_1 t).mp hf
  have hb : t.val / 8 < 4 := by omega
  show (cfg1.win 1).cut (grid1.coords t) ((dat1 V c).after 1 t) = _
  rw [after1_1]
  refine funext fun (y : S1x1024x1024.Idx) => ?_
  obtain ⟨o, h, rfl⟩ : ∃ o h : Fin 1024, y = ix3 (0 : Fin 1) o h :=
    ⟨y 1, y 2, (eq_ix3 y).trans (by congr 1; exact Fin.ext (Nat.lt_one_iff.mp (y 0).isLt))⟩
  have e : ((cfg1.win 1).blk t).view.emb (ix3 (0 : Fin 1) o h) = ix3 (⟨t.val / 8, hb⟩ : Fin 4) o h := by
    funext a
    apply Fin.ext
    match a with
    | ⟨0, _⟩ => show win1_1.index t 0 * 1 + 1 * 0 = t.val / 8; rw [(idx1_1 t).1]; omega
    | ⟨1, _⟩ => show win1_1.index t 1 * 1024 + 1 * o.val = o.val; rw [(idx1_1 t).2.1]; omega
    | ⟨2, _⟩ => show win1_1.index t 2 * 1024 + 1 * h.val = h.val; rw [(idx1_1 t).2.2]; omega
  rw [View.read_apply]
  show outsAt1 V c t.val t.isLt (ix3 (0 : Fin 1) o h)
    = Cert.Spec.gramArr (xarr V c) (((cfg1.win 1).blk t).view.emb (ix3 (0 : Fin 1) o h))
  rw [e, outsAt_last V c t h7 hb o h]
  rfl

/-- Every entry of the array lies in the block that the last point of its batch writes back. -/
theorem cover (i : S4x1024x1024.Idx) :
    ∃ t : Fin cfg1.N, (cfg1.win 1).flush t = true ∧ i ∈ ((cfg1.win 1).blk t).view.set := by
  have hi0 : (i 0).val < 4 := (i 0).isLt
  have hi1 : (i 1).val < 1024 := (i 1).isLt
  have hi2 : (i 2).val < 1024 := (i 2).isLt
  have hN : cfg1.N = 32 := N_1
  have ht : 8 * (i 0).val + 7 < cfg1.N := by rw [hN]; omega
  have h7 : (8 * (i 0).val + 7) % 8 = 7 := by omega
  have hd : (8 * (i 0).val + 7) / 8 = (i 0).val := by omega
  refine ⟨⟨8 * (i 0).val + 7, ht⟩, (flush1_1 ⟨8 * (i 0).val + 7, ht⟩).mpr h7, ?_⟩
  show i ∈ ((View.whole main_v4).slice (win1_1.rect ⟨8 * (i 0).val + 7, ht⟩)).set
  rw [View.set_slice_whole, Rect.mem_set_unit]
  intro a
  match a with
  | ⟨0, _⟩ =>
    show win1_1.index ⟨8 * (i 0).val + 7, ht⟩ 0 * 1 ≤ (i 0 : Nat)
      ∧ (i 0 : Nat) < win1_1.index ⟨8 * (i 0).val + 7, ht⟩ 0 * 1 + 1
    rw [(idx1_1 ⟨8 * (i 0).val + 7, ht⟩).1]
    show (8 * (i 0).val + 7) / 8 * 1 ≤ (i 0 : Nat) ∧ (i 0 : Nat) < (8 * (i 0).val + 7) / 8 * 1 + 1
    rw [hd]; omega
  | ⟨1, _⟩ =>
    show win1_1.index ⟨8 * (i 0).val + 7, ht⟩ 1 * 1024 ≤ (i 1 : Nat)
      ∧ (i 1 : Nat) < win1_1.index ⟨8 * (i 0).val + 7, ht⟩ 1 * 1024 + 1024
    rw [(idx1_1 ⟨8 * (i 0).val + 7, ht⟩).2.1]; omega
  | ⟨2, _⟩ =>
    show win1_1.index ⟨8 * (i 0).val + 7, ht⟩ 2 * 1024 ≤ (i 2 : Nat)
      ∧ (i 2 : Nat) < win1_1.index ⟨8 * (i 0).val + 7, ht⟩ 2 * 1024 + 1024
    rw [(idx1_1 ⟨8 * (i 0).val + 7, ht⟩).2.2]; omega

/-- After the second pass the Gram array holds, per batch, the Gram matrix of `main_arg0`. -/
theorem region1 (c : Dev nD) :
    (dat1 V c).arrAt 1 cfg1.N = Cert.Spec.gramArr (V c main_arg0) :=
  (dat1 V c).arrAt_eq_of_cover 1 (Cert.Spec.gramArr (xarr V c)) (flushed_eq V c) cover

end Cert.KernelIdeal.Whole.Pass1

end
-- ==== Proof.Region2.lean ====
import proofs.«142855_j34600256536774_1_alg».proof.Proof.Gen.KernelIdeal.Frame
import proofs.«142855_j34600256536774_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Whole.Pass2

open Idealize.ShloMosaic Idealize.ShloMosaic.TcCoe Idealize.ShloMosaic.ValueIdx Idealize.SL.Sem
open Idealize.ShloMosaic.Pipeline (Dat)
open Cert.KernelIdeal Cert.KernelIdeal.Gen

/-! ## The product of two square blocks at an entry

The third pass multiplies a `[1024, 1024]` block of rows by a `[1024, 1024]` matrix: the left operand is contracted along
its second axis, the right one along its first. -/

/-- The left operand's row is the result's row. -/
theorem lhs_mm_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- The left operand's column is the summation index. -/
theorem lhs_mm_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- The right operand's row is the summation index. -/
theorem rhs_mm_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- The right operand's column is the result's column. -/
theorem rhs_mm_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product accumulated into zero, at entry `(r, h)`: row `r` of the left operand against column `h` of the right. -/
theorem mm_apply (l : FVec Ideal S1024x1024 .bf16) (g : FVec Ideal S1024x1024 .bf16) (r h : Fin 1024) :
    matmul dot_S1024x1024_S1024x1024_S1024x1024_1_0_0_1_n_n none l g (constant (F := Ideal) S1024x1024 .f32 0x00000000#32) (ix2 r h)
      = ∑ k : Fin 1024, l (ix2 r k) * g (ix2 k h) := by
  show FloatOps.matmul dot_S1024x1024_S1024x1024_S1024x1024_1_0_0_1_n_n none l g (constant (F := Ideal) S1024x1024 .f32 0x00000000#32) (ix2 r h) = _
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 r h) ((ValueIdx.contrEquiv1 dot_S1024x1024_S1024x1024_S1024x1024_1_0_0_1_n_n 1024 rfl rfl).symm k) = ix2 r k := funext fun a => Fin.ext (by
    match a with
    | ⟨0, _⟩ => exact lhs_mm_0 _ _
    | ⟨1, _⟩ => exact (lhs_mm_1 _ _).trans hk)
  have er : dot_S1024x1024_S1024x1024_S1024x1024_1_0_0_1_n_n.rhsIdx (ix2 r h) ((ValueIdx.contrEquiv1 dot_S1024x1024_S1024x1024_S1024x1024_1_0_0_1_n_n 1024 rfl rfl).symm k) = ix2 k h := funext fun a => Fin.ext (by
    match a with
    | ⟨0, _⟩ => exact (rhs_mm_0 _ _).trans hk
    | ⟨1, _⟩ => exact rhs_mm_1 _ _)
  rw [el, er]

/-- The body's value at entry `(0, r, h)` of its block: the leading unit axis dropped from both loaded blocks, the
    narrowing of the right one the identity on extended reals, the product, and the unit axis put back. -/
theorem pay_apply (x0 : Vec Ideal S1x1024x1024 .bf16) (x1 : Vec Ideal S1x1024x1024 .f32) (z : Fin 1) (r h : Fin 1024) :
    k2_pay1 x0 x1 (ix3 z r h) = ∑ o : Fin 1024, x0 (ix3 0 r o) * x1 (ix3 0 o h) := by
  unfold k2_pay1
  refine (shapeCast_ab_1ab_apply _ _ z r h).trans ?_
  refine (mm_apply _ _ r h).trans ?_
  refine Finset.sum_congr rfl fun o _ => ?_
  have e0 : shapeCast S1024x1024 x0 shapeCasts_S1x1024x1024_S1024x1024 (ix2 r o) = x0 (ix3 0 r o) :=
    shapeCast_1ab_ab_apply x0 _ r o
  have e1 : (truncf .bf16 (shapeCast S1024x1024 x1 shapeCasts_S1x1024x1024_S1024x1024) bitsLt_bf16_f32 : FVec Ideal S1024x1024 .bf16) (ix2 o h)
      = x1 (ix3 0 o h) :=
    (truncf_apply (φ := .f32) (ψ := .bf16) (shapeCast S1024x1024 x1 shapeCasts_S1x1024x1024_S1024x1024) bitsLt_bf16_f32 (ix2 o h)).trans
      (shapeCast_1ab_ab_apply x1 _ o h)
  rw [e0, e1]

/-- A block of the result against the whole arrays. Let the loaded blocks `x0`, `x1` be the arrays `A`, `G` read through
    embeddings `e0`, `e1` of block indices, and let `e2` embed the result's block. If all three put the block at batch
    `i0`, the left and the result blocks at row offset `i1 · 1024`, and the right block at row offset zero, then the
    body's value at a block index is the per-batch product of `A` and `G` at the embedded index. -/
theorem block_entry (A : Cert.Spec.SX.Idx → EReal) (G : Cert.Spec.SG.Idx → EReal)
    (x0 : Vec Ideal S1x1024x1024 .bf16) (x1 : Vec Ideal S1x1024x1024 .f32)
    (e0 e2 : S1x1024x1024.Idx → Cert.Spec.SX.Idx) (e1 : S1x1024x1024.Idx → Cert.Spec.SG.Idx)
    (h0 : ∀ y, x0 y = A (e0 y)) (h1 : ∀ y, x1 y = G (e1 y)) (i0 i1 : Nat)
    (he0 : ∀ (z : Fin 1) (r o : Fin 1024), (e0 (ix3 z r o) 0).val = i0 ∧ (e0 (ix3 z r o) 1).val = i1 * 1024 + r.val ∧ (e0 (ix3 z r o) 2).val = o.val)
    (he1 : ∀ (z : Fin 1) (o h : Fin 1024), (e1 (ix3 z o h) 0).val = i0 ∧ (e1 (ix3 z o h) 1).val = o.val ∧ (e1 (ix3 z o h) 2).val = h.val)
    (he2 : ∀ (z : Fin 1) (r h : Fin 1024), (e2 (ix3 z r h) 0).val = i0 ∧ (e2 (ix3 z r h) 1).val = i1 * 1024 + r.val ∧ (e2 (ix3 z r h) 2).val = h.val)
    (j : S1x1024x1024.Idx) :
    k2_pay1 x0 x1 j = Cert.Spec.batchTimes A G (e2 j) := by
  obtain ⟨z, r, h, rfl⟩ : ∃ (z : Fin 1) (r h : Fin 1024), j = ix3 z r h := ⟨j 0, j 1, j 2, eq_ix3 j⟩
  rw [pay_apply]
  unfold Cert.Spec.batchTimes
  refine Finset.sum_congr rfl fun o _ => ?_
  rw [h0, h1]
  obtain ⟨a0, a1, a2⟩ := he0 0 r o
  obtain ⟨b0, b1, b2⟩ := he1 0 o h
  obtain ⟨c0, c1, c2⟩ := he2 z r h
  have el : e0 (ix3 0 r o) = ix3 (e2 (ix3 z r h) 0) (e2 (ix3 z r h) 1) o := funext fun a => Fin.ext (by
    match a with
    | ⟨0, _⟩ => exact a0.trans c0.symm
    | ⟨1, _⟩ => exact a1.trans c1.symm
    | ⟨2, _⟩ => exact a2)
  have er : e1 (ix3 0 o h) = ix3 (e2 (ix3 z r h) 0) o (e2 (ix3 z r h) 2) := funext fun a => Fin.ext (by
    match a with
    | ⟨0, _⟩ => exact b0.trans c0.symm
    | ⟨1, _⟩ => exact b1
    | ⟨2, _⟩ => exact b2.trans c2.symm)
  rw [el, er]
  rfl

/-! ## From the blocks to the array -/

variable (V : (c : Dev nD) → (b : Ref sig .tc) → Buf (Elt Ideal) ((c : Thread nD τ).loc b))

/-- The zero offsets of the body's one load and store rectangle. -/
theorem zero_off : (![0, 0, 0] : Fin 3 → Nat) = fun _ => 0 := funext fun a => by
  match a with
  | ⟨0, _⟩ => rfl
  | ⟨1, _⟩ => rfl
  | ⟨2, _⟩ => rfl

/-- The block indices at a point, decided over the grid: the left block moves with the result's block in batch and row
    block; the right block moves with it in batch only and is a whole matrix. -/
theorem idx_facts : ∀ t : Fin cfg2.N,
    win2_0.index t (0 : Fin 3) = win2_2.index t (0 : Fin 3)
    ∧ win2_0.index t (1 : Fin 3) = win2_2.index t (1 : Fin 3)
    ∧ win2_0.index t (2 : Fin 3) = 0
    ∧ win2_1.index t (0 : Fin 3) = win2_2.index t (0 : Fin 3)
    ∧ win2_1.index t (1 : Fin 3) = 0
    ∧ win2_1.index t (2 : Fin 3) = 0
    ∧ win2_2.index t (2 : Fin 3) = 0 :=
  (by decide +kernel : ∀ t : Fin grid2.N, _)

/-- Every batch and row block is some point's. -/
theorem idx_onto : ∀ (q0 : Fin 4) (q1 : Fin 4), ∃ t : Fin cfg2.N, win2_2.index t = ![q0.val, q1.val, 0] :=
  (by decide +kernel : ∀ (q0 : Fin 4) (q1 : Fin 4), ∃ t : Fin grid2.N, win2_2.index t = ![q0.val, q1.val, 0])

/-- What a point writes back is its block of the per-batch product of the two input arrays. -/
theorem flushed_eq (c : Dev nD) (t : Fin cfg2.N) :
    (dat2 V c).flushed 2 t
      = ((cfg2.win 2).blk t).view.read (Elt Ideal) (Cert.Spec.batchTimes (V c main_v3) (V c main_v4)) := by
  show (cfg2.win 2).cut (grid2.coords t) ((dat2 V c).after 2 t) = _
  rw [after2_2]
  unfold out2_2
  rw [View.canon_unit_zero zero_off]
  simp only [View.ld_unit_zero (S := S1x1024x1024) zero_off]
  obtain ⟨f0, f1, f2, f3, f4, f5, f6⟩ := idx_facts t
  funext j
  exact block_entry (V c main_v3) (V c main_v4) (iblk2 V c 0 t) (iblk2 V c 1 t)
    (fun y : S1x1024x1024.Idx => ((cfg2.win 0).blk t).view.emb y)
    (fun y : S1x1024x1024.Idx => ((cfg2.win 2).blk t).view.emb y)
    (fun y : S1x1024x1024.Idx => ((cfg2.win 1).blk t).view.emb y)
    (fun _ => rfl) (fun _ => rfl) (win2_2.index t (0 : Fin 3)) (win2_2.index t (1 : Fin 3))
    (fun z r o => ⟨by show win2_0.index t (0 : Fin 3) * 1 + 1 * z.val = _; omega,
      by show win2_0.index t (1 : Fin 3) * 1024 + 1 * r.val = _; omega,
      by show win2_0.index t (2 : Fin 3) * 1024 + 1 * o.val = _; omega⟩)
    (fun z o h => ⟨by show win2_1.index t (0 : Fin 3) * 1 + 1 * z.val = _; omega,
      by show win2_1.index t (1 : Fin 3) * 1024 + 1 * o.val = _; omega,
      by show win2_1.index t (2 : Fin 3) * 1024 + 1 * h.val = _; omega⟩)
    (fun z r h => ⟨by show win2_2.index t (0 : Fin 3) * 1 + 1 * z.val = _; omega,
      by show win2_2.index t (1 : Fin 3) * 1024 + 1 * r.val = _; omega,
      by show win2_2.index t (2 : Fin 3) * 1024 + 1 * h.val = _; omega⟩)
    j

/-- An index of the result array is in a point's block iff each coordinate is in the block's range on its axis. -/
theorem mem_blk (t : Fin cfg2.N) (i : S4x4096x1024.Idx) :
    i ∈ ((cfg2.win 2).blk t).view.set ↔ ∀ a : Fin 3, win2_2.index t a * S1x1024x1024.size a ≤ (i a).val
      ∧ (i a).val < win2_2.index t a * S1x1024x1024.size a + S1x1024x1024.size a := by
  show i ∈ ((View.whole main_v5).slice (win2_2.rect t)).set ↔ _
  rw [View.set_slice_whole, Rect.mem_set_unit]
  exact Iff.rfl

/-- The blocks tile the result array: entry `(b, s, h)` lies in the block of batch `b` and row block `s / 1024`. -/
theorem covered (i : S4x4096x1024.Idx) :
    ∃ t : Fin cfg2.N, (cfg2.win 2).flush t = true ∧ i ∈ ((cfg2.win 2).blk t).view.set := by
  have hi0 : (i 0).val < 4 := (i 0).isLt
  have hi1 : (i 1).val < 4096 := (i 1).isLt
  have hi2 : (i 2).val < 1024 := (i 2).isLt
  obtain ⟨t, ht⟩ := idx_onto ⟨(i 0).val, hi0⟩ ⟨(i 1).val / 1024, by omega⟩
  have q0 : win2_2.index t (0 : Fin 3) = (i 0).val := congrFun ht 0
  have q1 : win2_2.index t (1 : Fin 3) = (i 1).val / 1024 := congrFun ht 1
  have q2 : win2_2.index t (2 : Fin 3) = 0 := congrFun ht 2
  refine ⟨t, flush2_2 t, ?_⟩
  rw [mem_blk]
  intro a
  match a with
  | ⟨0, _⟩ => show win2_2.index t (0 : Fin 3) * 1 ≤ (i 0).val ∧ (i 0).val < win2_2.index t (0 : Fin 3) * 1 + 1; omega
  | ⟨1, _⟩ => show win2_2.index t (1 : Fin 3) * 1024 ≤ (i 1).val ∧ (i 1).val < win2_2.index t (1 : Fin 3) * 1024 + 1024; omega
  | ⟨2, _⟩ => show win2_2.index t (2 : Fin 3) * 1024 ≤ (i 2).val ∧ (i 2).val < win2_2.index t (2 : Fin 3) * 1024 + 1024; omega

/-- After the third pass the result array holds, per batch, the rows of `main_v3` against the columns of `main_v4`. -/
theorem region2 (c : Dev nD) :
    (dat2 V c).arrAt 2 cfg2.N = Cert.Spec.batchTimes (V c main_v3) (V c main_v4) :=
  (dat2 V c).arrAt_eq_of_cover 2 (Cert.Spec.batchTimes (V c main_v3) (V c main_v4)) (fun t _ => flushed_eq V c t) covered

end Cert.KernelIdeal.Whole.Pass2

end
-- ==== Proof.Chain.lean ====
/-
  The kernel's result array, from the launch contents.

  The program is: the weight transposed and `x` flattened to rows (host); pass 1, the queries of all rows; the queries
  cast back to batches (host); pass 2, the Gram array of `x`; pass 3, queries against Gram per batch. Each pass's
  value is read off its own run at whatever contents it is entered with; here those contents are followed from
  the launch memory through the program, and the composition is the kernel's bracketing of the triple product.
-/
import proofs.«142855_j34600256536774_1_alg».proof.Proof.Gen.KernelIdeal.Frame
import proofs.«142855_j34600256536774_1_alg».proof.Proof.Spec
import proofs.«142855_j34600256536774_1_alg».proof.Proof.Stages
import proofs.«142855_j34600256536774_1_alg».proof.Proof.Region0
import proofs.«142855_j34600256536774_1_alg».proof.Proof.Region1
import proofs.«142855_j34600256536774_1_alg».proof.Proof.Region2
import Idealize.ShloMosaic.Lib.StableHlo.Run

set_option maxRecDepth 16384

noncomputable section

namespace Cert.KernelIdeal.Whole

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The two argument arrays at launch, at their literal types. -/
abbrev xin (c : Dev nD) : Vec Ideal S4x4096x1024 .f32 := m ((c : Thread nD τ).loc main_arg0)
abbrev win (c : Dev nD) : Vec Ideal S1024x1024 .f32 := m ((c : Thread nD τ).loc main_arg1)

/-- Pass 1 is entered with `x` flattened to rows … -/
theorem entry_rows (c : Dev nD) :
    (V1 m ρ c main_v1 : Vec Ideal S16384x1024 .f32) = shapeCast S16384x1024 (xin m c) Facts₀.shapeCasts_S4x4096x1024_S16384x1024 := by
  show StableHlo.after hostOps0 (W0 m ρ c) (Proc.devRef .tc main_v1) = _
  after_results
  rfl

/-- … and the weight transposed. -/
theorem entry_wt (c : Dev nD) :
    (V1 m ρ c main_v0 : Vec Ideal S1024x1024 .f32) = transpose S1024x1024 [1, 0] (win m c) Facts₀.transposes_S1024x1024_S1024x1024_1_0 := by
  show StableHlo.after hostOps0 (W0 m ρ c) (Proc.devRef .tc main_v0) = _
  after_results

/-- Pass 2 is entered with `x` as launched: nothing before it writes that array. -/
theorem entry_x (c : Dev nD) : (V3 m ρ c main_arg0 : Vec Ideal S4x4096x1024 .f32) = xin m c :=
  ((W4_arr m ρ c 0).trans (((dat1 (V3 m ρ) c).arrAt_in 0 rfl _).trans (A_eq1 (V3 m ρ) c 0))).symm.trans
    ((W5_of_ne m ρ c main_arg0 (by decide)).symm.trans (W5_main_arg0 m ρ c))

/-- The queries as pass 3 finds them: pass 1's rows array cast back to batches. -/
theorem entry_q (c : Dev nD) :
    (V4 m ρ c main_v3 : Vec Ideal S4x4096x1024 .bf16)
      = shapeCast S4x4096x1024 (Cert.Spec.rowsTimes (V1 m ρ c main_v1) (V1 m ρ c main_v0)) Facts₀.shapeCasts_S16384x1024_S4x4096x1024 := by
  refine (W4_of_ne m ρ c main_v3 (by decide)).trans ?_
  show StableHlo.after hostOps1 (W2 m ρ c) (Proc.devRef .tc main_v3) = _
  after_results
  rw [show W2 m ρ c (Proc.devRef .tc main_v2) = Cert.Spec.rowsTimes (V1 m ρ c main_v1) (V1 m ρ c main_v0) from
    (W2_arr m ρ c 2).trans (Pass0.region0 (V1 m ρ) c)]
  rfl

/-- The Gram array as pass 3 finds it: pass 2's result, of `x` as launched. -/
theorem entry_g (c : Dev nD) : (V4 m ρ c main_v4 : Vec Ideal S4x1024x1024 .f32) = Cert.Spec.gramArr (xin m c) :=
  (W4_arr m ρ c 1).trans ((Pass1.region1 (V3 m ρ) c).trans (congrArg Cert.Spec.gramArr (entry_x m ρ c)))

/-- THE RESULT: after the third pass the result array holds the kernel's bracketing of the launch arrays. -/
theorem result_eq (c : Dev nD) :
    (dat2 (V4 m ρ) c).arrAt 2 cfg2.N = Cert.Spec.attnK (xin m c) (win m c) := by
  rw [Pass2.region2 (V4 m ρ) c, entry_g m ρ c, entry_q m ρ c, entry_rows m ρ c, entry_wt m ρ c]
  exact Cert.Spec.stages_eq _ _ _ _ _

end Cert.KernelIdeal.Whole

end
-- ==== Proof.RefValue.lean ====
import proofs.«142855_j34600256536774_1_alg».proof.Defs
import proofs.«142855_j34600256536774_1_alg».proof.Proof.Gen.ReferenceIdeal.Read
import proofs.«142855_j34600256536774_1_alg».proof.Proof.Gen.Pre_finite_inputs
import proofs.«142855_j34600256536774_1_alg».proof.Proof.Spec
import Idealize.ShloMosaic.Lib.ReduceAll

noncomputable section

namespace Cert.ReferenceIdeal.RefValue

open Idealize.ShloMosaic Idealize.ShloMosaic.TcCoe Idealize.ShloMosaic.ValueIdx Idealize.SL.Sem
open Cert.ReferenceIdeal Cert.ReferenceIdeal.Gen

/-! ## The contractions' operand indices, by coordinates

Each contraction reads its left operand at the result's index with the last coordinate replaced by the summation
variable, and its right operand at the batch (if any), the free coordinate and the summation variable in the order the
operand stores them. Composed through the three stages these are the index triples and pairs of the closed form. -/

/-- Third stage, right operand: batch, summation variable, last result coordinate. -/
theorem r2_eq (i : S4x4096x1024.Idx) (t : Fin 4096) :
    Read.ridx_main_v2 i t = ix3 (i 0) t (i 2) :=
  funext fun a => match a with | ⟨0, _⟩ => rfl | ⟨1, _⟩ => rfl | ⟨2, _⟩ => rfl

/-- Second stage under the third, right operand: batch, the outer summation variable, the inner one. -/
theorem r1_eq (i : S4x4096x1024.Idx) (t : Fin 4096) (o : Fin 1024) :
    Read.ridx_main_v1 (Read.lidx_main_v2 i t) o = ix3 (i 0) t o :=
  funext fun a => match a with | ⟨0, _⟩ => rfl | ⟨1, _⟩ => rfl | ⟨2, _⟩ => rfl

/-- First stage under the other two, left operand: batch, row, innermost summation variable. -/
theorem l0_eq (i : S4x4096x1024.Idx) (t : Fin 4096) (o k : Fin 1024) :
    Read.lidx_main_v0 (Read.lidx_main_v1 (Read.lidx_main_v2 i t) o) k = ix3 (i 0) (i 1) k :=
  funext fun a => match a with | ⟨0, _⟩ => rfl | ⟨1, _⟩ => rfl | ⟨2, _⟩ => rfl

/-- First stage under the other two, right operand: the weight's row is the second stage's summation variable. -/
theorem r0_eq (i : S4x4096x1024.Idx) (t : Fin 4096) (o k : Fin 1024) :
    Read.ridx_main_v0 (Read.lidx_main_v1 (Read.lidx_main_v2 i t) o) k = ix2 o k :=
  funext fun a => match a with | ⟨0, _⟩ => rfl | ⟨1, _⟩ => rfl

/-- The reference's three contractions, read at an index, are the scores-first bracketing. -/
theorem ref_eq (x : (⟨S4x4096x1024, .f32⟩ : BufTy).Contents (Elt Ideal)) (w : (⟨S1024x1024, .f32⟩ : BufTy).Contents (Elt Ideal)) :
    Cert.ReferenceIdeal.Read.val_main_v2 (F := Ideal) x w = Cert.Spec.attnR x w := by
  funext i
  rw [Read.val_main_v2_apply]
  unfold Cert.Spec.attnR
  refine Finset.sum_congr rfl fun t _ => ?_
  rw [Read.val_main_v1_apply, r2_eq]
  refine congrArg (· * x (ix3 (i 0) t (i 2))) ?_
  refine Finset.sum_congr rfl fun o _ => ?_
  rw [Read.val_main_v0_apply, r1_eq]
  refine congrArg (· * x (ix3 (i 0) t o)) ?_
  unfold Cert.Spec.q
  refine Finset.sum_congr rfl fun k _ => ?_
  rw [l0_eq, r0_eq]
  rfl

/-! ## The precondition, read back

The predicate is the conjunction of two reductions by `and` over all entries, each of `|a| < +∞` over one input. On the extended reals
`|a| = max a (-a)`, which is `⊤` at both infinities, so the strict comparison holds exactly at the reals. -/

instance : Subsingleton Cert.Pre_finite_inputs.S_.Idx := ⟨fun a b => funext fun d => d.elim0⟩

/-- The pattern `0x7F800000` denotes `⊤`. -/
theorem ofBits_inf : Ideal.ofBits .f32 0x7F800000#32 = ⊤ := by simp [Ideal.ofBits, Ideal.ieee]

/-- An extended real whose absolute value compares strictly below `+∞` is a real number. -/
theorem real_of_abs_lt_inf (a : EReal)
    (h : Ideal.cmp .olt (max a (-a)) (Ideal.ofBits .f32 0x7F800000#32) = 1#1) : ∃ r : ℝ, a = (r : EReal) := by
  rw [ofBits_inf] at h
  induction a using EReal.rec with
  | bot => simp [Ideal.cmp] at h
  | top => simp [Ideal.cmp] at h
  | coe r => exact ⟨r, rfl⟩

/-- The precondition read: every entry of both inputs is a real number. -/
theorem finite_of_pre (x : FVec Ideal Cert.Pre_finite_inputs.S4x4096x1024 .f32) (w : FVec Ideal Cert.Pre_finite_inputs.S1024x1024 .f32)
    (h : Cert.Pre_finite_inputs.fn (F := Ideal) x w = fun _ => 1#1) :
    (∀ i, ∃ r : ℝ, x i = (r : EReal)) ∧ (∀ i, ∃ r : ℝ, w i = (r : EReal)) := by
  have h0 := congrFun h ValueIdx.ix0
  dsimp only [Cert.Pre_finite_inputs.fn] at h0
  obtain ⟨hx, hw⟩ := IntOp.andi_eq_one.1 h0
  refine ⟨fun i => ?_, fun i => ?_⟩
  · exact real_of_abs_lt_inf (x i) (Host.reduce_andi_all _ _ _ _ _ hx i)
  · exact real_of_abs_lt_inf (w i) (Host.reduce_andi_all _ _ _ _ _ hw i)

end Cert.ReferenceIdeal.RefValue

end
-- ==== Proof.lean ====
/- The proof of `Cert.Claim`: a three-pass kernel for `(x · wᵀ) · (xᵀ · x)` per batch against the reference's
   `((x · wᵀ) · xᵀ) · x`, over the extended reals, where every input entry is finite.

   The two sides are the two bracketings of one triple matrix product. They agree where every entry is a real
   number (Proof/Spec.lean: distributivity and an exchange of two finite sums, both of which fail at the infinities),
   which is what the precondition says (Proof/RefValue.lean reads it). The kernel's result array is followed through
   its three passes (Proof/Region0.lean, Region1.lean, Region2.lean: each pass's array as one function of the arrays it
   is entered with; Proof/Chain.lean: the composition from the launch contents; Proof/Stages.lean: that the composition
   is the kernel's bracketing), the reference's through its three contractions (Proof/RefValue.lean). The frames are
   the programs' runs with the values dropped; the idealization rewrote nothing. -/
import proofs.«142855_j34600256536774_1_alg».proof.Defs
import proofs.«142855_j34600256536774_1_alg».proof.Proof.Gen.Kernel
import proofs.«142855_j34600256536774_1_alg».proof.Proof.Gen.Kernel.Skeleton
import proofs.«142855_j34600256536774_1_alg».proof.Proof.Gen.Kernel.Launch
import proofs.«142855_j34600256536774_1_alg».proof.Proof.Gen.Kernel.Points
import proofs.«142855_j34600256536774_1_alg».proof.Proof.Gen.Kernel.Frame
import proofs.«142855_j34600256536774_1_alg».proof.Proof.Gen.KernelIdeal
import proofs.«142855_j34600256536774_1_alg».proof.Proof.Gen.KernelIdeal.Skeleton
import proofs.«142855_j34600256536774_1_alg».proof.Proof.Gen.KernelIdeal.Launch
import proofs.«142855_j34600256536774_1_alg».proof.Proof.Gen.KernelIdeal.Points
import proofs.«142855_j34600256536774_1_alg».proof.Proof.Gen.KernelIdeal.Frame
import proofs.«142855_j34600256536774_1_alg».proof.Proof.Gen.ReferenceIdeal
import proofs.«142855_j34600256536774_1_alg».proof.Proof.Gen.ReferenceIdeal.Run
import proofs.«142855_j34600256536774_1_alg».proof.Proof.Gen.ReferenceIdeal.Read
import proofs.«142855_j34600256536774_1_alg».proof.Proof.Gen.Pre_finite_inputs
import proofs.«142855_j34600256536774_1_alg».proof.Proof.Spec
import proofs.«142855_j34600256536774_1_alg».proof.Proof.WholeRun
import proofs.«142855_j34600256536774_1_alg».proof.Proof.Chain
import proofs.«142855_j34600256536774_1_alg».proof.Proof.RefValue
import Idealize.ShloMosaic.Adequacy
import Idealize.ShloMosaic.Init

noncomputable section

namespace Cert.Proof

open Idealize.ShloMosaic Idealize.SL.Sem

/-- The reference runs and leaves its arguments alone: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at the kernel's bracketing of the launch arrays: the kernel by its three passes, the reference
    by its own bracketing, which equals the kernel's because the precondition makes every entry a real number. -/
theorem algebraic : Cert.algebraic_KernelIdeal_ReferenceIdeal := by
  intro m ρ m' ρ' hpre hagree
  refine ⟨fun c => Cert.Spec.attnK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Whole.result_eq m ρ c), (h c).2⟩)
      (Cert.KernelIdeal.Whole.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v2_eq, Cert.ReferenceIdeal.RefValue.ref_eq, (hagree c).1, (hagree c).2]
    obtain ⟨hx, hw⟩ := Cert.ReferenceIdeal.RefValue.finite_of_pre _ _ (hpre c)
    exact Cert.Spec.attnR_eq_attnK _ _ hx hw

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_reference,
    trivial,
    algebraic⟩

end Cert.Proof

end
